-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x512 : Shape := ⟨2, ![16384, 512]⟩
abbrev S16384x1 : Shape := ⟨2, ![16384, 1]⟩
abbrev S1024x768 : Shape := ⟨2, ![1024, 768]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x1 : S_.BroadcastsInDim S16384x1 (![] : Fin 0 → Fin S16384x1.rank)
  reducesTo_S16384x1_S_d0_1 : S16384x1.ReducesTo [0, 1] S_
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512x1024 .f32) (main_arg12 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1024 .f32 := Host.absf main_arg11
  let main_cst_20 : FVec F S_ .f32 := constant S_ .f32 0x7F800000#32
  let main_v55 : FVec F S512x1024 .f32 := broadcastInDim S512x1024 ![] bcast_S_S512x1024 main_cst_20
  let main_v56 : IVec S512x1024 1 := cmpf .olt main_v54 main_v55
  let main_c_21 : IVec S_ 1 := constantI S_ 1 1#1
  let main_v57 : IVec S_ 1 := (fun x v => Host.reduce IntOp.andi x v reducesTo_S512x1024_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg7 : FVec F S512x1024 .f32) (main_arg8 : FVec F S512 .f32) (main_arg9 : FVec F S512x1024 .f32) (main_arg10 : FVec F S512 .f32) (main_arg11 : FVec F S512x1024 .f32) (main_arg12 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_v48 main_v49 main_v50

def fn_part1 {F : FTy → Type} [FloatOps F] (main_arg4 : FVec F S1024 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_arg11 : FVec F S512x1024 .f32) (main_arg12 : FVec F S512 .f32) (main_v13 : IVec S_ 1) (main_v16 : IVec S1024x768 1) : IVec S_ 1 :=
  let main_c_5 : IVec S_ 1 := constantI S_ 1 1#1
  let main_v17 : IVec S_ 1 := (fun x v => Host.reduce IntOp.andi x v reducesTo_S1024x768_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x256 .f32) (main_arg1 : FVec F S16384x512 .f32) (main_arg2 : FVec F S16384x1 .f32) (main_arg3 : FVec F S1024x768 .f32) (main_arg4 : FVec F S1024 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_arg11 : FVec F S512x1024 .f32) (main_arg12 : FVec F S512 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S1024x768 .f32 := Host.absf main_arg3
  let main_cst_4 : FVec F S_ .f32 := constant S_ .f32 0x7F800000#32
  let main_v15 : FVec F S1024x768 .f32 := broadcastInDim S1024x768 ![] bcast_S_S1024x768 main_cst_4
  let main_v16 : IVec S1024x768 1 := cmpf .olt main_v14 main_v15
  fn_part1 (F := F) main_arg4 main_arg5 main_arg6 main_arg7 main_arg8 main_arg9 main_arg10 main_arg11 main_arg12 main_v13 main_v16
-- ==== Kernel.lean ====
abbrev S16384x256 : Shape := ⟨2, ![16384, 256]⟩
abbrev S16384x512 : Shape := ⟨2, ![16384, 512]⟩
abbrev S16384x1 : Shape := ⟨2, ![16384, 1]⟩
abbrev S1024x768 : Shape := ⟨2, ![1024, 768]⟩
abbrev S1024 : Shape := ⟨1, ![1024]⟩
abbrev S512x1024 : Shape := ⟨2, ![512, 1024]⟩
abbrev S512 : Shape := ⟨1, ![512]⟩
abbrev S1024x256 : Shape := ⟨2, ![1024, 256]⟩
abbrev S256x1024 : Shape := ⟨2, ![256, 1024]⟩
abbrev S1024x512 : Shape := ⟨2, ![1024, 512]⟩
abbrev S1x1024 : Shape := ⟨2, ![1, 1024]⟩
abbrev S1x512 : Shape := ⟨2, ![1, 512]⟩
abbrev S512x256 : Shape := ⟨2, ![512, 256]⟩
abbrev S512x512 : Shape := ⟨2, ![512, 512]⟩
abbrev S512x1 : Shape := ⟨2, ![512, 1]⟩

abbrev nBuf : Space → Nat
  | .hbm => 33
  | .vmem => 19
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x1, .f32⟩
  | .hbm, ⟨3, _⟩ => ⟨S1024x768, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S512x1024, .f32⟩
  | .hbm, ⟨12, _⟩ => ⟨S512, .f32⟩
  | .hbm, ⟨13, _⟩ => ⟨S1024x256, .f32⟩
  | .hbm, ⟨14, _⟩ => ⟨S256x1024, .f32⟩
  | .hbm, ⟨15, _⟩ => ⟨S256x1024, .bf16⟩
  | .hbm, ⟨16, _⟩ => ⟨S1024x512, .f32⟩
  | .hbm, ⟨17, _⟩ => ⟨S512x1024, .f32⟩
  | .hbm, ⟨18, _⟩ => ⟨S512x1024, .bf16⟩
  | .hbm, ⟨19, _⟩ => ⟨S1024x512, .f32⟩
  | .hbm, ⟨20, _⟩ => ⟨S1024x512, .bf16⟩
  | .hbm, ⟨21, _⟩ => ⟨S1024x512, .f32⟩
  | .hbm, ⟨22, _⟩ => ⟨S1024x512, .bf16⟩
  | .hbm, ⟨23, _⟩ => ⟨S1024x512, .f32⟩
  | .hbm, ⟨24, _⟩ => ⟨S1024x512, .bf16⟩
  | .hbm, ⟨25, _⟩ => ⟨S1024x512, .f32⟩
  | .hbm, ⟨26, _⟩ => ⟨S1024x512, .bf16⟩
  | .hbm, ⟨27, _⟩ => ⟨S1x1024, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S16384x512, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S512x1, .f32⟩
  | .local _ .vmem, ⟨5, _⟩ => ⟨S512x1, .f32⟩
  | .local _ .vmem, ⟨6, _⟩ => ⟨S256x1024, .bf16⟩
  | .local _ .vmem, ⟨7, _⟩ => ⟨S512x1024, .bf16⟩
  | .local _ .vmem, ⟨8, _⟩ => ⟨S1x1024, .f32⟩
  | .local _ .vmem, ⟨9, _⟩ => ⟨S1024x512, .bf16⟩
  | .local _ .vmem, ⟨10, _⟩ => ⟨S1x512, .f32⟩
  | .local _ .vmem, ⟨11, _⟩ => ⟨S1024x512, .bf16⟩
  | .local _ .vmem, ⟨12, _⟩ => ⟨S1x512, .f32⟩
  | .local _ .vmem, ⟨13, _⟩ => ⟨S1024x512, .bf16⟩
  | .local _ .vmem, ⟨14, _⟩ => ⟨S1x512, .f32⟩
  | .local _ .vmem, ⟨15, _⟩ => ⟨S1024x512, .bf16⟩
  | .local _ .vmem, ⟨16, _⟩ => ⟨S1x512, .f32⟩
  | .local _ .vmem, ⟨17, _⟩ => ⟨S512x512, .f32⟩
  | .local _ .vmem, ⟨18, _⟩ => ⟨S512x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S1024x768_S1024x256_0_0 : S1024x768.Slices ![0, 0] S1024x256
  transposes_S1024x256_S256x1024_1_0 : S1024x256.Transposes [1, 0] S256x1024
  bitsLt_bf16_f32 : FTy.bits .bf16 < FTy.bits .f32
  slices_S1024x768_S1024x512_0_256 : S1024x768.Slices ![0, 256] S1024x512
  transposes_S1024x512_S512x1024_1_0 : S1024x512.Transposes [1, 0] S512x1024
  transposes_S512x1024_S1024x512_1_0 : S512x1024.Transposes [1, 0] S1024x512
  shapeCasts_S1024_S1x1024 : S1024.ShapeCasts S1x1024
  shapeCasts_S512_S1x512 : S512.ShapeCasts S1x512
  inb_S512x256_S512x256_0_0 : ∀ a, (![0, 0] : Fin 2 → Nat) a + S512x256.size a ≤ S512x256.size a
  h_S512x256 : 0 < S512x256.numel
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  broadcasts_S512x1_S512x512 : S512x1.Broadcasts S512x512
  dot_S512x256_S256x1024_S512x1024_1_0_0_1_n_n_wf : DotDims.WF S512x256 S256x1024 S512x1024 [1] [0] [0] [1] [] []
  dot_S512x512_S512x1024_S512x1024_1_0_0_1_n_n_wf : DotDims.WF S512x512 S512x1024 S512x1024 [1] [0] [0] [1] [] []
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .bf16 = 32 ∨ (Rect.block (s := S1024x512) S1024x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S1024x512.size a
  hwx0_10 : ∀ i : grid0.Coords, EltTy.bits .bf16 = 32 ∨ (Rect.block (s := S1024x512) S1024x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S1024x512.size a
  hwx0_12 : ∀ i : grid0.Coords, EltTy.bits .bf16 = 32 ∨ (Rect.block (s := S1024x512) S1024x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S16384x512.size a
  hwx0_14 : ∀ i : grid0.Coords, EltTy.bits .f32 = 32 ∨ (Rect.block (s := S16384x512) S512x512.size (cc0_transform_14 i) (hinb0_14 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1024x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1024x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S512x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x512 : Shape := ⟨2, ![16384, 512]⟩
abbrev S16384x1 : Shape := ⟨2, ![16384, 1]⟩
abbrev S1024x768 : Shape := ⟨2, ![1024, 768]⟩
abbrev S1024 : Shape := ⟨1, ![1024]⟩
abbrev S512x1024 : Shape := ⟨2, ![512, 1024]⟩
abbrev S512 : Shape := ⟨1, ![512]⟩
abbrev S16384x768 : Shape := ⟨2, ![16384, 768]⟩
abbrev S768x1024 : Shape := ⟨2, ![768, 1024]⟩
abbrev S16384x1024 : Shape := ⟨2, ![16384, 1024]⟩
abbrev S1x1024 : Shape := ⟨2, ![1, 1024]⟩
abbrev S_ : Shape := ⟨0, ![]⟩
abbrev S1024x512 : Shape := ⟨2, ![1024, 512]⟩
abbrev S1x512 : Shape := ⟨2, ![1, 512]⟩

abbrev nBuf : Space → Nat
  | .hbm => 65
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x512, .f32⟩
  | .hbm, ⟨2, _⟩ => ⟨S16384x1, .f32⟩
  | .hbm, ⟨3, _⟩ => ⟨S1024x768, .f32⟩
  | .hbm, ⟨4, _⟩ => ⟨S1024, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S512x1024, .f32⟩
  | .hbm, ⟨12, _⟩ => ⟨S512, .f32⟩
  | .hbm, ⟨13, _⟩ => ⟨S16384x768, .f32⟩
  | .hbm, ⟨14, _⟩ => ⟨S768x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S1024x512, .f32⟩
  | .hbm, ⟨27, _⟩ => ⟨S16384x512, .f32⟩
  | .hbm, ⟨28, _⟩ => ⟨S1x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S1024x512, .f32⟩
  | .hbm, ⟨33, _⟩ => ⟨S16384x512, .f32⟩
  | .hbm, ⟨34, _⟩ => ⟨S1x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S1024x512, .f32⟩
  | .hbm, ⟨39, _⟩ => ⟨S16384x512, .f32⟩
  | .hbm, ⟨40, _⟩ => ⟨S1x512, .f32⟩
  | .hbm, ⟨41, _⟩ => ⟨S16384x512, .f32⟩
  | .hbm, ⟨42, _⟩ => ⟨S16384x512, .f32⟩
  | .hbm, ⟨43, _⟩ => ⟨S1024x512, .f32⟩
  | .hbm, ⟨44, _⟩ => ⟨S16384x512, .f32⟩
  | .hbm, ⟨45, _⟩ => ⟨S1x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S_, .f32⟩
  | .hbm, ⟨54, _⟩ => ⟨S16384x512, .f32⟩
  | .hbm, ⟨55, _⟩ => ⟨S16384x512, .f32⟩
  | .hbm, ⟨56, _⟩ => ⟨S_, .f32⟩
  | .hbm, ⟨57, _⟩ => ⟨S16384x512, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_1 : Ref sig .tc := ⟨.hbm, 53, rfl⟩
abbrev main_v38 : Ref sig .tc := ⟨.hbm, 54, rfl⟩
abbrev main_v39 : Ref sig .tc := ⟨.hbm, 55, rfl⟩
abbrev main_cst_2 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  concatenates_S16384x256_S16384x512_S16384x768_d1 : Shape.Concatenates [S16384x256, S16384x512] S16384x768 1
  transposes_S1024x768_S768x1024_1_0 : S1024x768.Transposes [1, 0] S768x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  dot_S16384x768_S768x1024_S16384x1024_1_0_0_1_n_n_wf : DotDims.WF S16384x768 S768x1024 S16384x1024 [1] [0] [0] [1] [] []
  dot_S16384x1024_S1024x512_S16384x512_1_0_0_1_n_n_wf : DotDims.WF S16384x1024 S1024x512 S16384x512 [1] [0] [0] [1] [] []

variable [Facts₀]

def dot_S16384x768_S768x1024_S16384x1024_1_0_0_1_n_n : DotDims S16384x768 S768x1024 S16384x1024 where
  lhsContracting := [1]
  rhsContracting := [0]
  lhsNonContracting := [0]
  rhsNonContracting := [1]
  lhsBatch := []
  rhsBatch := []
  wf := dot_S16384x768_S768x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.LibRows.lean ====
/-
  A network that treats every row of its input alone — dense layers, entrywise maps, joining feature blocks side by
  side — can be evaluated on any band of rows cut out of the input: row `p` of the band's result is row `r` of the
  whole result as soon as row `p` of the band's input is row `r` of the whole input. The lemmas below say this for one
  operation at a time, for a band of `B` rows beside a whole of `M` rows, whatever the widths. One side is spelt
  the way a blocked program spells the operation (a product accumulated into a zero splat, a splat scalar), the other
  the way a whole-array program does (a plain product, a rank-zero constant broadcast); over the extended reals the
  two spellings are one value, and a change of float format is the identity.
-/
import Idealize.ShloMosaic.Lib.KernelVsHost
import Idealize.ShloMosaic.Lib.StackMember
import Idealize.ShloMosaic.Lib.ValueIdx
import Idealize.ShloMosaic.Lib.Pipeline.Value

noncomputable section

namespace Cert.Rows

open Idealize.ShloMosaic Idealize.ShloMosaic.ValueIdx
open scoped BigOperators

/-- A dense layer on a band: entry `(p, q)` of the band's product, accumulated into zero, is entry `(r, q)` of the
    whole product — both are `∑ k, A (r, k) * W (k, q)` — when band row `p` is row `r` and the two right factors
    agree on column `q`. The dimension numbers are any that are the plain rows-by-columns ones. -/
theorem dense_band {B M K N : Nat} {φa φb φw φv : FTy}
    (db : DotDims ⟨2, ![B, K]⟩ ⟨2, ![K, N]⟩ ⟨2, ![B, N]⟩) (hdb : db = DotDims.plain B K N)
    (d : DotDims ⟨2, ![M, K]⟩ ⟨2, ![K, N]⟩ ⟨2, ![M, N]⟩) (hd : d = DotDims.plain M K N)
    (Ab : FVec Ideal ⟨2, ![B, K]⟩ φa) (A : FVec Ideal ⟨2, ![M, K]⟩ φb)
    (Wb : FVec Ideal ⟨2, ![K, N]⟩ φw) (W : FVec Ideal ⟨2, ![K, N]⟩ φv)
    (p : Fin B) (r : Fin M) (q : Fin N)
    (hrow : ∀ k : Fin K, Ab (ix2 p k) = A (ix2 r k)) (hcol : ∀ k : Fin K, Wb (ix2 k q) = W (ix2 k q)) :
    matmul db none Ab Wb (constant ⟨2, ![B, N]⟩ .f32 0x00000000#32) (ix2 p q) = Host.dotGeneral d none A W (ix2 r q) := by
  subst hdb hd
  rw [matmul_zero_eq_dotGeneral, StackMember.dotGeneral_plain_apply, StackMember.dotGeneral_plain_apply]
  exact Finset.sum_congr rfl fun k _ => by rw [hrow k, hcol k]

/-- Clamping at zero, entry by entry: the zero is a splat scalar on one side and a broadcast rank-zero constant on the
    other, the same word. -/
theorem clamp_band {B M N : Nat} (hb : FVec Ideal ⟨2, ![B, N]⟩ .f32) (h : FVec Ideal ⟨2, ![M, N]⟩ .f32)
    (bc : (⟨0, ![]⟩ : Shape).BroadcastsInDim ⟨2, ![M, N]⟩ ![]) (p : Fin B) (r : Fin M) (q : Fin N)
    (hrow : hb (ix2 p q) = h (ix2 r q)) :
    maximumf hb (broadcast ⟨2, ![B, N]⟩ (Scalar.ofBits .f32 0x00000000#32)) (ix2 p q)
      = maximumf h (broadcastInDim ⟨2, ![M, N]⟩ ![] bc (constant ⟨0, ![]⟩ .f32 0x00000000#32)) (ix2 r q) := by
  rw [broadcastInDim_constant]
  show FloatOps.maximumf (hb (ix2 p q)) _ = FloatOps.maximumf (h (ix2 r q)) _
  rw [hrow]; rfl

/-- Scaling by a constant, entry by entry, the constant given by its word. -/
theorem scale_band {B M N : Nat} (w : BitVec 32) (ub : FVec Ideal ⟨2, ![B, N]⟩ .f32) (u : FVec Ideal ⟨2, ![M, N]⟩ .f32)
    (bc : (⟨0, ![]⟩ : Shape).BroadcastsInDim ⟨2, ![M, N]⟩ ![]) (p : Fin B) (r : Fin M) (q : Fin N)
    (hrow : ub (ix2 p q) = u (ix2 r q)) :
    mulf ub (broadcast ⟨2, ![B, N]⟩ (Scalar.ofBits .f32 w)) (ix2 p q)
      = mulf u (broadcastInDim ⟨2, ![M, N]⟩ ![] bc (constant ⟨0, ![]⟩ .f32 w)) (ix2 r q) := by
  rw [broadcastInDim_constant]
  show FloatOps.mulf (ub (ix2 p q)) _ = FloatOps.mulf (u (ix2 r q)) _
  rw [hrow]; rfl

/-- The sine, entry by entry: one function on the extended reals under both of its names. -/
theorem sin_band {B M N : Nat} (ub : FVec Ideal ⟨2, ![B, N]⟩ .f32) (u : FVec Ideal ⟨2, ![M, N]⟩ .f32)
    (p : Fin B) (r : Fin M) (q : Fin N) (hrow : ub (ix2 p q) = u (ix2 r q)) :
    sin ub (ix2 p q) = Host.sin u (ix2 r q) := by
  show FloatOps.sin (ub (ix2 p q)) = FloatOps.hostUnary .sin (u (ix2 r q))
  rw [hrow]; rfl

/-- The cosine, likewise. -/
theorem cos_band {B M N : Nat} (ub : FVec Ideal ⟨2, ![B, N]⟩ .f32) (u : FVec Ideal ⟨2, ![M, N]⟩ .f32)
    (p : Fin B) (r : Fin M) (q : Fin N) (hrow : ub (ix2 p q) = u (ix2 r q)) :
    cos ub (ix2 p q) = Host.cos u (ix2 r q) := by
  show FloatOps.cos (ub (ix2 p q)) = FloatOps.hostUnary .cos (u (ix2 r q))
  rw [hrow]; rfl

/-- The exponential, likewise. -/
theorem exp_band {B M N : Nat} (ub : FVec Ideal ⟨2, ![B, N]⟩ .f32) (u : FVec Ideal ⟨2, ![M, N]⟩ .f32)
    (p : Fin B) (r : Fin M) (q : Fin N) (hrow : ub (ix2 p q) = u (ix2 r q)) :
    exp ub (ix2 p q) = Host.exp u (ix2 r q) := by
  show FloatOps.exp (ub (ix2 p q)) = FloatOps.hostUnary .exp (u (ix2 r q))
  rw [hrow]; rfl

/-- The test "strictly between two constants", entry by entry, as a bit: the same comparison of the same numbers. -/
theorem between_band {B M N : Nat} (lo hi : BitVec 32) (xb : FVec Ideal ⟨2, ![B, N]⟩ .f32) (x : FVec Ideal ⟨2, ![M, N]⟩ .f32)
    (bc : (⟨0, ![]⟩ : Shape).BroadcastsInDim ⟨2, ![M, N]⟩ ![]) (p : Fin B) (r : Fin M) (q : Fin N)
    (hrow : xb (ix2 p q) = x (ix2 r q)) :
    andi (cmpf .ogt xb (broadcast ⟨2, ![B, N]⟩ (Scalar.ofBits .f32 lo))) (cmpf .olt xb (broadcast ⟨2, ![B, N]⟩ (Scalar.ofBits .f32 hi)))
        (ix2 p q)
      = andi (cmpf .ogt x (broadcastInDim ⟨2, ![M, N]⟩ ![] bc (constant ⟨0, ![]⟩ .f32 lo)))
          (cmpf .olt x (broadcastInDim ⟨2, ![M, N]⟩ ![] bc (constant ⟨0, ![]⟩ .f32 hi))) (ix2 r q) := by
  rw [broadcastInDim_constant, broadcastInDim_constant]
  show IntOp.andi (FloatOps.cmpf .ogt (xb (ix2 p q)) _) (FloatOps.cmpf .olt (xb (ix2 p q)) _)
    = IntOp.andi (FloatOps.cmpf .ogt (x (ix2 r q)) _) (FloatOps.cmpf .olt (x (ix2 r q)) _)
  rw [hrow]; rfl

/-- Two feature blocks joined side by side: a row of the joint is the row of the first followed by the row of the second. -/
theorem join2_band {B M n₁ n₂ n : Nat} (ab : FVec Ideal ⟨2, ![B, n₁]⟩ .f32) (bb : FVec Ideal ⟨2, ![B, n₂]⟩ .f32)
    (a : FVec Ideal ⟨2, ![M, n₁]⟩ .f32) (b : FVec Ideal ⟨2, ![M, n₂]⟩ .f32)
    (hcb : Shape.Concatenates [⟨2, ![B, n₁]⟩, ⟨2, ![B, n₂]⟩] ⟨2, ![B, n]⟩ 1)
    (hc : Shape.Concatenates [⟨2, ![M, n₁]⟩, ⟨2, ![M, n₂]⟩] ⟨2, ![M, n]⟩ 1)
    (hn : n₁ + n₂ = n) (p : Fin B) (r : Fin M) (j : Fin n)
    (h₁ : ∀ k : Fin n₁, ab (ix2 p k) = a (ix2 r k)) (h₂ : ∀ k : Fin n₂, bb (ix2 p k) = b (ix2 r k)) :
    concatenate ⟨2, ![B, n]⟩ 1 [⟨⟨2, ![B, n₁]⟩, ab⟩, ⟨⟨2, ![B, n₂]⟩, bb⟩] hcb (ix2 p j)
      = concatenate ⟨2, ![M, n]⟩ 1 [⟨⟨2, ![M, n₁]⟩, a⟩, ⟨⟨2, ![M, n₂]⟩, b⟩] hc (ix2 r j) := by
  by_cases hj : j.val < n₁
  · rw [concatenate_pair_apply_left 1 ab bb hcb (ix2 p j) rfl (ix2 p ⟨j.val, hj⟩)
        (fun b => by match b with | ⟨0, _⟩ => rfl | ⟨1, _⟩ => rfl),
      concatenate_pair_apply_left 1 a b hc (ix2 r j) rfl (ix2 r ⟨j.val, hj⟩)
        (fun b => by match b with | ⟨0, _⟩ => rfl | ⟨1, _⟩ => rfl)]
    exact h₁ _
  · have hj2 : j.val - n₁ < n₂ := by have := j.isLt; omega
    rw [concatenate_pair_apply_right 1 ab bb hcb (ix2 p j) rfl rfl (ix2 p ⟨j.val - n₁, hj2⟩)
        (fun b hb => by match b with | ⟨0, _⟩ => rfl | ⟨1, _⟩ => exact absurd rfl hb)
        (by show (j.val - n₁) + n₁ = j.val; omega),
      concatenate_pair_apply_right 1 a b hc (ix2 r j) rfl rfl (ix2 r ⟨j.val - n₁, hj2⟩)
        (fun b hb => by match b with | ⟨0, _⟩ => rfl | ⟨1, _⟩ => exact absurd rfl hb)
        (by show (j.val - n₁) + n₁ = j.val; omega)]
    exact h₂ _

end Cert.Rows

end
-- ==== Proof.LibCells.lean ====
/-
  More of the row-by-row calculus: a network that treats every row of its input alone, evaluated on a band of
  `B` rows, gives on band row `p` what the whole evaluation on `M` rows gives on row `r`, as soon as band row `p`
  of every input is row `r` of the whole input. Each lemma below says this for one operation, read at one entry
  `(p, q)` of the band against entry `(r, q)` of the whole. One side spells the operation the way a blocked program
  does (a splat scalar, a product accumulated into zero, a one-row or one-column vector stretched over the block),
  the other the way a whole-array program does (a rank-zero constant broadcast, a plain product, a vector broadcast
  along named axes). Over the extended reals the two spellings are one value.
-/
import Idealize.ShloMosaic.Lib.KernelVsHost
import Idealize.ShloMosaic.Lib.StackMember
import Idealize.ShloMosaic.Lib.ValueIdx
import Idealize.ShloMosaic.Lib.Pipeline.Value
import Idealize.ShloMosaic.Lib.IdealHost

noncomputable section

namespace Cert.Cells

open Idealize.ShloMosaic Idealize.ShloMosaic.ValueIdx
open scoped BigOperators

/-! ## Entrywise operations -/

/-- A constant given by its word: splat over the band, or broadcast from rank zero over the whole. -/
theorem splat_band {B M N : Nat} (w : BitVec 32) (bc : (⟨0, ![]⟩ : Shape).BroadcastsInDim ⟨2, ![M, N]⟩ ![])
    (p : Fin B) (r : Fin M) (q : Fin N) :
    (broadcast ⟨2, ![B, N]⟩ (Scalar.ofBits (F := Ideal) .f32 w) : FVec Ideal ⟨2, ![B, N]⟩ .f32) (ix2 p q)
      = broadcastInDim ⟨2, ![M, N]⟩ ![] bc (constant ⟨0, ![]⟩ .f32 w : FVec Ideal ⟨0, ![]⟩ .f32) (ix2 r q) := by
  rw [broadcastInDim_constant]; rfl

/-- A sum of two entries that agree is a sum that agrees. -/
theorem add_band {B M N : Nat} {φ : FTy} (ab bb : FVec Ideal ⟨2, ![B, N]⟩ φ) (a b : FVec Ideal ⟨2, ![M, N]⟩ φ)
    (p : Fin B) (r : Fin M) (q : Fin N) (ha : ab (ix2 p q) = a (ix2 r q)) (hb : bb (ix2 p q) = b (ix2 r q)) :
    addf ab bb (ix2 p q) = addf a b (ix2 r q) := by
  show FloatOps.addf (ab (ix2 p q)) (bb (ix2 p q)) = FloatOps.addf (a (ix2 r q)) (b (ix2 r q))
  rw [ha, hb]

/-- A difference, likewise. -/
theorem sub_band {B M N : Nat} {φ : FTy} (ab bb : FVec Ideal ⟨2, ![B, N]⟩ φ) (a b : FVec Ideal ⟨2, ![M, N]⟩ φ)
    (p : Fin B) (r : Fin M) (q : Fin N) (ha : ab (ix2 p q) = a (ix2 r q)) (hb : bb (ix2 p q) = b (ix2 r q)) :
    subf ab bb (ix2 p q) = subf a b (ix2 r q) := by
  show FloatOps.subf (ab (ix2 p q)) (bb (ix2 p q)) = FloatOps.subf (a (ix2 r q)) (b (ix2 r q))
  rw [ha, hb]

/-- A product of two entries, likewise. -/
theorem mul_band {B M N : Nat} {φ : FTy} (ab bb : FVec Ideal ⟨2, ![B, N]⟩ φ) (a b : FVec Ideal ⟨2, ![M, N]⟩ φ)
    (p : Fin B) (r : Fin M) (q : Fin N) (ha : ab (ix2 p q) = a (ix2 r q)) (hb : bb (ix2 p q) = b (ix2 r q)) :
    mulf ab bb (ix2 p q) = mulf a b (ix2 r q) := by
  show FloatOps.mulf (ab (ix2 p q)) (bb (ix2 p q)) = FloatOps.mulf (a (ix2 r q)) (b (ix2 r q))
  rw [ha, hb]

/-- The hyperbolic tangent: one function on the extended reals under both of its names. -/
theorem tanh_band {B M N : Nat} (ub : FVec Ideal ⟨2, ![B, N]⟩ .f32) (u : FVec Ideal ⟨2, ![M, N]⟩ .f32)
    (p : Fin B) (r : Fin M) (q : Fin N) (hrow : ub (ix2 p q) = u (ix2 r q)) :
    tanh ub (ix2 p q) = Host.tanh u (ix2 r q) := by
  show FloatOps.tanh (ub (ix2 p q)) = FloatOps.hostUnary .tanh (u (ix2 r q))
  rw [hrow]; rfl

/-- The logistic function as one operation, against its expansion `1 / (1 + e^(-z))` in four: on the extended reals
    the operation IS that expression, and the word `0x3F800000` is the number one. -/
theorem sigmoid_band {B M N : Nat} (zb : FVec Ideal ⟨2, ![B, N]⟩ .f32) (z : FVec Ideal ⟨2, ![M, N]⟩ .f32)
    (bc : (⟨0, ![]⟩ : Shape).BroadcastsInDim ⟨2, ![M, N]⟩ ![]) (p : Fin B) (r : Fin M) (q : Fin N)
    (hrow : zb (ix2 p q) = z (ix2 r q)) :
    logistic zb (ix2 p q)
      = Host.divf (broadcastInDim ⟨2, ![M, N]⟩ ![] bc (constant ⟨0, ![]⟩ .f32 0x3F800000#32))
          (addf (broadcastInDim ⟨2, ![M, N]⟩ ![] bc (constant ⟨0, ![]⟩ .f32 0x3F800000#32)) (Host.exp (Host.negf z))) (ix2 r q) := by
  rw [broadcastInDim_constant]
  show FloatOps.logistic (zb (ix2 p q))
    = FloatOps.hostDivf (FloatOps.ofBits (F := Ideal) .f32 0x3F800000#32)
        (FloatOps.addf (FloatOps.ofBits (F := Ideal) .f32 0x3F800000#32) (FloatOps.hostUnary .exp (FloatOps.hostNegf (z (ix2 r q)))))
  rw [hrow, Ideal.ofBits_def, Ideal.ofBits_one_f32]
  rfl

/-! ## Vectors stretched over the block -/

/-- A row vector added to every row: the band's one-row block stretched down its rows against the whole
    program's vector broadcast to one row and then down all rows. Entry `(p, q)` and entry `(r, q)` both read
    the vector's entry `q`. -/
theorem bias_band {α : Type} {B M N : Nat} (x : (⟨2, ![1, N]⟩ : Shape).Idx → α) (b : (⟨1, ![N]⟩ : Shape).Idx → α)
    (hb : (⟨2, ![1, N]⟩ : Shape).Broadcasts ⟨2, ![B, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (p : Fin B) (r : Fin M) (q : Fin N) (hx : x (ix2 (0 : Fin 1) q) = b (ix1 q)) :
    broadcastTo ⟨2, ![B, N]⟩ x hb (ix2 p q)
      = broadcastInDim ⟨2, ![M, N]⟩ ![0, 1] h2 (broadcastInDim ⟨2, ![1, N]⟩ ![1] h1 b) (ix2 r q) := by
  rw [broadcastInDim_oneRow_apply]
  have e1 := broadcastTo_apply x hb (ix2 p q) (ix2 (0 : Fin 1) q) (by
    intro a
    match a with
    | ⟨0, _⟩ => rfl
    | ⟨1, _⟩ =>
      show q.val = if N = 1 then 0 else q.val
      split
      · have := q.isLt; omega
      · rfl)
  have e3 := broadcastInDim_apply ![1] h1 b (ix2 (0 : Fin 1) q) (ix1 q) (by
    intro a
    match a with
    | ⟨0, _⟩ =>
      show q.val = if N = 1 then 0 else q.val
      split
      · have := q.isLt; omega
      · rfl)
  exact e1.trans (hx.trans e3.symm)

/-- A column vector multiplied into every column: the band's one-column block stretched along its lanes against
    the whole program's one-column array broadcast along its lanes. Entry `(p, q)` reads the band's `(p, 0)`, entry
    `(r, q)` the whole's `(r, 0)`. -/
theorem col_band {α : Type} {B M N : Nat} (x : (⟨2, ![B, 1]⟩ : Shape).Idx → α) (A : (⟨2, ![M, 1]⟩ : Shape).Idx → α)
    (hb : (⟨2, ![B, 1]⟩ : Shape).Broadcasts ⟨2, ![B, N]⟩)
    (hd : (⟨2, ![M, 1]⟩ : Shape).BroadcastsInDim ⟨2, ![M, N]⟩ ![0, 1])
    (p : Fin B) (r : Fin M) (q : Fin N) (hx : x (ix2 p (0 : Fin 1)) = A (ix2 r (0 : Fin 1))) :
    broadcastTo ⟨2, ![B, N]⟩ x hb (ix2 p q) = broadcastInDim ⟨2, ![M, N]⟩ ![0, 1] hd A (ix2 r q) := by
  have e1 := broadcastTo_apply x hb (ix2 p q) (ix2 p (0 : Fin 1)) (by
    intro a
    match a with
    | ⟨0, _⟩ =>
      show p.val = if B = 1 then 0 else p.val
      split
      · have := p.isLt; omega
      · rfl
    | ⟨1, _⟩ => rfl)
  have e3 := broadcastInDim_apply ![0, 1] hd A (ix2 r q) (ix2 r (0 : Fin 1)) (by
    intro a
    match a with
    | ⟨0, _⟩ =>
      show r.val = if M = 1 then 0 else r.val
      split
      · have := r.isLt; omega
      · rfl
    | ⟨1, _⟩ => rfl)
  exact e1.trans (hx.trans e3.symm)

/-! ## A dense layer whose features arrive in two blocks -/

/-- A dense layer over features that arrive in two blocks, `K₁` then `K₂` of them: the band computes one product
    per block, each accumulated into zero, and adds them; the whole program multiplies the joined features once.
    Entry `(p, q)` of the band's sum is entry `(r, q)` of the whole product, both being
    `∑ k < K₁, a₁ (p, k) · w₁ (k, q) + ∑ k < K₂, a₂ (p, k) · w₂ (k, q)`: a sum over `K₁ + K₂` indices splits at
    `K₁`. No finiteness is needed. -/
theorem dense2_band {B M K₁ K₂ K N : Nat} {φa φb φu φv φA φW : FTy}
    (d₁ : DotDims ⟨2, ![B, K₁]⟩ ⟨2, ![K₁, N]⟩ ⟨2, ![B, N]⟩) (hd₁ : d₁ = DotDims.plain B K₁ N)
    (d₂ : DotDims ⟨2, ![B, K₂]⟩ ⟨2, ![K₂, N]⟩ ⟨2, ![B, N]⟩) (hd₂ : d₂ = DotDims.plain B K₂ N)
    (d : DotDims ⟨2, ![M, K]⟩ ⟨2, ![K, N]⟩ ⟨2, ![M, N]⟩) (hd : d = DotDims.plain M K N) (hK : K₁ + K₂ = K)
    (a₁ : FVec Ideal ⟨2, ![B, K₁]⟩ φa) (a₂ : FVec Ideal ⟨2, ![B, K₂]⟩ φb)
    (w₁ : FVec Ideal ⟨2, ![K₁, N]⟩ φu) (w₂ : FVec Ideal ⟨2, ![K₂, N]⟩ φv)
    (A : FVec Ideal ⟨2, ![M, K]⟩ φA) (W : FVec Ideal ⟨2, ![K, N]⟩ φW)
    (p : Fin B) (r : Fin M) (q : Fin N)
    (ha₁ : ∀ k : Fin K₁, a₁ (ix2 p k) = A (ix2 r ⟨k.val, by have := k.isLt; omega⟩))
    (hw₁ : ∀ k : Fin K₁, w₁ (ix2 k q) = W (ix2 ⟨k.val, by have := k.isLt; omega⟩ q))
    (ha₂ : ∀ k : Fin K₂, a₂ (ix2 p k) = A (ix2 r ⟨K₁ + k.val, by have := k.isLt; omega⟩))
    (hw₂ : ∀ k : Fin K₂, w₂ (ix2 k q) = W (ix2 ⟨K₁ + k.val, by have := k.isLt; omega⟩ q)) :
    addf (matmul d₁ none a₁ w₁ (constant ⟨2, ![B, N]⟩ .f32 0x00000000#32))
        (matmul d₂ none a₂ w₂ (constant ⟨2, ![B, N]⟩ .f32 0x00000000#32)) (ix2 p q)
      = Host.dotGeneral d none A W (ix2 r q) := by
  subst hd₁ hd₂ hd hK
  show FloatOps.addf (matmul (DotDims.plain B K₁ N) none a₁ w₁ (constant ⟨2, ![B, N]⟩ .f32 0x00000000#32) (ix2 p q))
      (matmul (DotDims.plain B K₂ N) none a₂ w₂ (constant ⟨2, ![B, N]⟩ .f32 0x00000000#32) (ix2 p q)) = _
  rw [matmul_zero_eq_dotGeneral, matmul_zero_eq_dotGeneral, StackMember.dotGeneral_plain_apply,
    StackMember.dotGeneral_plain_apply, StackMember.dotGeneral_plain_apply, Fin.sum_univ_add]
  show (∑ k : Fin K₁, a₁ (ix2 p k) * w₁ (ix2 k q)) + (∑ k : Fin K₂, a₂ (ix2 p k) * w₂ (ix2 k q)) = _
  congr 1
  · exact Finset.sum_congr rfl fun k _ => by rw [ha₁ k, hw₁ k]; rfl
  · exact Finset.sum_congr rfl fun k _ => by rw [ha₂ k, hw₂ k]; rfl

end Cert.Cells

end
-- ==== Proof.Cell.lean ====
/-
  One entry of the network, computed on a band of 512 rows against the whole batch of 16384.

  The network, for one row `x = [input | hx]` of the batch (768 features): a hidden layer
  `h = c₂ · tanh (c₁ · (x · Wbᵀ + bb))` of 1024 units, then four dense heads of 512 outputs over `h`,
  `f₁ = tanh (h · W1ᵀ + b1)`, `f₂ = tanh (h · W2ᵀ + b2)`, `tₐ = h · Waᵀ + ba`, `t_b = h · Wtᵀ + bt`, a gate
  `s = 1 / (1 + e^(-(tₐ · ts + t_b)))` and the output `f₁ · (1 - s) + s · f₂`. Every row is treated alone.

  The blocked program holds a band of rows of `input`, `hx` and `ts`, and the weights already transposed (the
  backbone's weight cut into its first 256 and last 512 input features); it forms the hidden layer as the sum of two
  products. The whole-array program joins `input` and `hx` and multiplies once. The two sums are one sum over 768
  features split at 256. Nothing else differs but spelling, so entry `(p, q)` of the band's result is entry `(r, q)`
  of the whole result whenever band row `p` holds row `r`.
-/
import proofs.«135253_j5669356836202_1_alg».proof.Proof.Gen.KernelIdeal.Skeleton
import proofs.«135253_j5669356836202_1_alg».proof.Proof.Gen.ReferenceIdeal.Read
import proofs.«135253_j5669356836202_1_alg».proof.Proof.LibRows
import proofs.«135253_j5669356836202_1_alg».proof.Proof.LibCells

noncomputable section

namespace Cert.Cell

open Idealize.ShloMosaic Idealize.ShloMosaic.ValueIdx
open Cert.KernelIdeal Cert.KernelIdeal.Gen Cert.ReferenceIdeal.Read Cert.Rows Cert.Cells

/-! ## The transposed weights of the whole-array program, read at an entry -/

theorem wbT (A3 : FVec Ideal S1024x768 .f32) (k : Fin 768) (u : Fin 1024) :
    val_main_v1 (F := Ideal) A3 (ix2 k u) = A3 (ix2 u k) := by
  rw [val_main_v1_apply]
  exact congrArg A3 (funext fun a => by match a with | ⟨0, _⟩ => rfl | ⟨1, _⟩ => rfl)

theorem w1T (A5 : FVec Ideal S512x1024 .f32) (k : Fin 1024) (q : Fin 512) :
    val_main_v11 (F := Ideal) A5 (ix2 k q) = A5 (ix2 q k) := by
  rw [val_main_v11_apply]
  exact congrArg A5 (funext fun a => by match a with | ⟨0, _⟩ => rfl | ⟨1, _⟩ => rfl)

theorem w2T (A7 : FVec Ideal S512x1024 .f32) (k : Fin 1024) (q : Fin 512) :
    val_main_v17 (F := Ideal) A7 (ix2 k q) = A7 (ix2 q k) := by
  rw [val_main_v17_apply]
  exact congrArg A7 (funext fun a => by match a with | ⟨0, _⟩ => rfl | ⟨1, _⟩ => rfl)

theorem waT (A9 : FVec Ideal S512x1024 .f32) (k : Fin 1024) (q : Fin 512) :
    val_main_v23 (F := Ideal) A9 (ix2 k q) = A9 (ix2 q k) := by
  rw [val_main_v23_apply]
  exact congrArg A9 (funext fun a => by match a with | ⟨0, _⟩ => rfl | ⟨1, _⟩ => rfl)

theorem wtT (A11 : FVec Ideal S512x1024 .f32) (k : Fin 1024) (q : Fin 512) :
    val_main_v28 (F := Ideal) A11 (ix2 k q) = A11 (ix2 q k) := by
  rw [val_main_v28_apply]
  exact congrArg A11 (funext fun a => by match a with | ⟨0, _⟩ => rfl | ⟨1, _⟩ => rfl)

/-! ## The hidden layer -/

/-- Unit `u` of the hidden layer on band row `p` is unit `u` on batch row `r`: the band's two products, over the 256
    input features and over the 512 state features, add up to the one product over the 768 joined features. -/
theorem hidden_cell (x0 : Vec Ideal S512x256 .f32) (x1 : Vec Ideal S512x512 .f32) (x3 : Vec Ideal S256x1024 .bf16)
    (x4 : Vec Ideal S512x1024 .bf16) (x5 : Vec Ideal S1x1024 .f32)
    (A0 : FVec Ideal S16384x256 .f32) (A1 : FVec Ideal S16384x512 .f32) (A3 : FVec Ideal S1024x768 .f32)
    (A4 : FVec Ideal S1024 .f32) (p : Fin 512) (r : Fin 16384) (u : Fin 1024)
    (h0 : ∀ k : Fin 256, x0 (ix2 p k) = A0 (ix2 r k)) (h1 : ∀ k : Fin 512, x1 (ix2 p k) = A1 (ix2 r k))
    (h3 : ∀ k : Fin 256, x3 (ix2 k u) = A3 (ix2 u (⟨k.val, by have := k.isLt; omega⟩ : Fin 768)))
    (h4 : ∀ k : Fin 512, x4 (ix2 k u) = A3 (ix2 u (⟨256 + k.val, by have := k.isLt; omega⟩ : Fin 768)))
    (h5 : x5 (ix2 (0 : Fin 1) u) = A4 (ix1 u)) :
    k0_pay2 x0 x1 x3 x4 x5 (ix2 p u) = val_main_v10 (F := Ideal) A0 A1 A3 A4 (ix2 r u) := by
  unfold k0_pay2 val_main_v10 val_main_v9 val_main_cst_0 val_main_v8 val_main_v7 val_main_v6 val_main_cst val_main_v5
    val_main_v4 val_main_v3 val_main_v2 val_main_v0
  simp only [shapeCast_self]
  rw [truncf_apply]
  refine mul_band _ _ _ _ p r u (splat_band _ _ p r u) (tanh_band _ _ p r u (mul_band _ _ _ _ p r u
    (splat_band _ _ p r u) (add_band _ _ _ _ p r u ?_ (bias_band _ _ _ _ _ p r u h5))))
  refine dense2_band _ rfl _ rfl _ rfl rfl _ _ _ _ _ _ p r u ?_ ?_ ?_ ?_
  · intro k
    refine (h0 k).trans (Eq.symm ?_)
    exact concatenate_pair_apply_left (t := ⟨2, ![16384, 768]⟩) 1 A0 A1 _ (ix2 r (⟨k.val, by have := k.isLt; omega⟩ : Fin 768)) rfl (ix2 r k)
      (fun b => by match b with | ⟨0, _⟩ => rfl | ⟨1, _⟩ => rfl)
  · intro k
    rw [wbT]; exact h3 k
  · intro k
    refine (h1 k).trans (Eq.symm ?_)
    exact concatenate_pair_apply_right (t := ⟨2, ![16384, 768]⟩) 1 A0 A1 _ (ix2 r (⟨256 + k.val, by have := k.isLt; omega⟩ : Fin 768)) rfl rfl (ix2 r k)
      (fun b hb => by match b with | ⟨0, _⟩ => rfl | ⟨1, _⟩ => exact absurd rfl hb)
      (by show k.val + 256 = 256 + k.val; omega)
  · intro k
    rw [wbT]; exact h4 k

/-! ## A head over the hidden layer -/

/-- One dense head over the hidden layer, with its bias: output `q` on band row `p` is output `q` on batch row `r`,
    given that the hidden layers agree on those rows. -/
theorem head_cell (hb : FVec Ideal S512x1024 .bf16) (H : FVec Ideal (⟨2, ![16384, 1024]⟩ : Shape) .f32)
    (w : FVec Ideal S1024x512 .bf16) (x : FVec Ideal S1x512 .f32) (Wt : FVec Ideal S1024x512 .f32) (b : FVec Ideal S512 .f32)
    (d : DotDims (⟨2, ![16384, 1024]⟩ : Shape) S1024x512 S16384x512) (hd : d = DotDims.plain 16384 1024 512)
    (e1 : S512.BroadcastsInDim S1x512 ![1]) (e2 : S1x512.BroadcastsInDim S16384x512 ![0, 1])
    (p : Fin 512) (r : Fin 16384) (q : Fin 512)
    (hh : ∀ k : Fin 1024, hb (ix2 p k) = H (ix2 r k)) (hw : ∀ k : Fin 1024, w (ix2 k q) = Wt (ix2 k q))
    (hx : x (ix2 (0 : Fin 1) q) = b (ix1 q)) :
    addf (matmul dot_S512x1024_S1024x512_S512x512_1_0_0_1_n_n none hb w (constant S512x512 .f32 0x00000000#32))
        (broadcastTo S512x512 x broadcasts_S1x512_S512x512) (ix2 p q)
      = addf (Host.dotGeneral d none H Wt) (broadcastInDim S16384x512 ![0, 1] e2 (broadcastInDim S1x512 ![1] e1 b)) (ix2 r q) :=
  add_band _ _ _ _ p r q (dense_band _ rfl d hd hb H w Wt p r q hh hw) (bias_band _ _ _ _ _ p r q hx)

/-- What the gate is applied to, `tₐ · ts + t_b`: two heads, the first scaled by the row's time step. -/
theorem pregate_cell (hb : FVec Ideal S512x1024 .bf16) (H : FVec Ideal (⟨2, ![16384, 1024]⟩ : Shape) .f32)
    (wa : FVec Ideal S1024x512 .bf16) (xa : FVec Ideal S1x512 .f32) (wt : FVec Ideal S1024x512 .bf16) (xt : FVec Ideal S1x512 .f32)
    (x2 : FVec Ideal S512x1 .f32)
    (WaT : FVec Ideal S1024x512 .f32) (ba : FVec Ideal S512 .f32) (WtT : FVec Ideal S1024x512 .f32) (bt : FVec Ideal S512 .f32)
    (A2 : FVec Ideal S16384x1 .f32)
    (d : DotDims (⟨2, ![16384, 1024]⟩ : Shape) S1024x512 S16384x512) (hd : d = DotDims.plain 16384 1024 512)
    (e1 : S512.BroadcastsInDim S1x512 ![1]) (e2 : S1x512.BroadcastsInDim S16384x512 ![0, 1])
    (e3 : S16384x1.BroadcastsInDim S16384x512 ![0, 1])
    (p : Fin 512) (r : Fin 16384) (q : Fin 512)
    (hh : ∀ k : Fin 1024, hb (ix2 p k) = H (ix2 r k))
    (hwa : ∀ k : Fin 1024, wa (ix2 k q) = WaT (ix2 k q)) (hxa : xa (ix2 (0 : Fin 1) q) = ba (ix1 q))
    (hwt : ∀ k : Fin 1024, wt (ix2 k q) = WtT (ix2 k q)) (hxt : xt (ix2 (0 : Fin 1) q) = bt (ix1 q))
    (h2 : x2 (ix2 p (0 : Fin 1)) = A2 (ix2 r (0 : Fin 1))) :
    addf (mulf (addf (matmul dot_S512x1024_S1024x512_S512x512_1_0_0_1_n_n none hb wa (constant S512x512 .f32 0x00000000#32))
            (broadcastTo S512x512 xa broadcasts_S1x512_S512x512))
          (broadcastTo S512x512 x2 broadcasts_S512x1_S512x512))
        (addf (matmul dot_S512x1024_S1024x512_S512x512_1_0_0_1_n_n none hb wt (constant S512x512 .f32 0x00000000#32))
          (broadcastTo S512x512 xt broadcasts_S1x512_S512x512)) (ix2 p q)
      = addf (mulf (addf (Host.dotGeneral d none H WaT) (broadcastInDim S16384x512 ![0, 1] e2 (broadcastInDim S1x512 ![1] e1 ba)))
            (broadcastInDim S16384x512 ![0, 1] e3 A2))
          (addf (Host.dotGeneral d none H WtT) (broadcastInDim S16384x512 ![0, 1] e2 (broadcastInDim S1x512 ![1] e1 bt))) (ix2 r q) :=
  add_band _ _ _ _ p r q
    (mul_band _ _ _ _ p r q (head_cell hb H wa xa WaT ba d hd e1 e2 p r q hh hwa hxa) (col_band _ _ _ _ p r q h2))
    (head_cell hb H wt xt WtT bt d hd e1 e2 p r q hh hwt hxt)

/-! ## The output -/

/-- Entry `(p, q)` of the band's output is entry `(r, q)` of the whole output. The four heads read the same hidden
    layer; the gate is the logistic function of `tₐ · ts + t_b`, one operation on the band's side and its expansion
    `1 / (1 + e^(-z))` on the other. -/
theorem out_cell (x0 : Vec Ideal S512x256 .f32) (x1 : Vec Ideal S512x512 .f32) (x2 : Vec Ideal S512x1 .f32)
    (x3 : Vec Ideal S256x1024 .bf16) (x4 : Vec Ideal S512x1024 .bf16) (x5 : Vec Ideal S1x1024 .f32)
    (x6 : Vec Ideal S1024x512 .bf16) (x7 : Vec Ideal S1x512 .f32) (x8 : Vec Ideal S1024x512 .bf16) (x9 : Vec Ideal S1x512 .f32)
    (x10 : Vec Ideal S1024x512 .bf16) (x11 : Vec Ideal S1x512 .f32) (x12 : Vec Ideal S1024x512 .bf16) (x13 : Vec Ideal S1x512 .f32)
    (A0 : FVec Ideal S16384x256 .f32) (A1 : FVec Ideal S16384x512 .f32) (A2 : FVec Ideal S16384x1 .f32)
    (A3 : FVec Ideal S1024x768 .f32) (A4 : FVec Ideal S1024 .f32) (A5 : FVec Ideal S512x1024 .f32) (A6 : FVec Ideal S512 .f32)
    (A7 : FVec Ideal S512x1024 .f32) (A8 : FVec Ideal S512 .f32) (A9 : FVec Ideal S512x1024 .f32) (A10 : FVec Ideal S512 .f32)
    (A11 : FVec Ideal S512x1024 .f32) (A12 : FVec Ideal S512 .f32)
    (p : Fin 512) (r : Fin 16384) (q : Fin 512)
    (h0 : ∀ k : Fin 256, x0 (ix2 p k) = A0 (ix2 r k)) (h1 : ∀ k : Fin 512, x1 (ix2 p k) = A1 (ix2 r k))
    (h2 : x2 (ix2 p (0 : Fin 1)) = A2 (ix2 r (0 : Fin 1)))
    (h3 : ∀ (k : Fin 256) (u : Fin 1024), x3 (ix2 k u) = A3 (ix2 u (⟨k.val, by have := k.isLt; omega⟩ : Fin 768)))
    (h4 : ∀ (k : Fin 512) (u : Fin 1024), x4 (ix2 k u) = A3 (ix2 u (⟨256 + k.val, by have := k.isLt; omega⟩ : Fin 768)))
    (h5 : ∀ u : Fin 1024, x5 (ix2 (0 : Fin 1) u) = A4 (ix1 u))
    (h6 : ∀ k : Fin 1024, x6 (ix2 k q) = A5 (ix2 q k)) (h7 : x7 (ix2 (0 : Fin 1) q) = A6 (ix1 q))
    (h8 : ∀ k : Fin 1024, x8 (ix2 k q) = A7 (ix2 q k)) (h9 : x9 (ix2 (0 : Fin 1) q) = A8 (ix1 q))
    (h10 : ∀ k : Fin 1024, x10 (ix2 k q) = A9 (ix2 q k)) (h11 : x11 (ix2 (0 : Fin 1) q) = A10 (ix1 q))
    (h12 : ∀ k : Fin 1024, x12 (ix2 k q) = A11 (ix2 q k)) (h13 : x13 (ix2 (0 : Fin 1) q) = A12 (ix1 q)) :
    k0_pay1 x2 (k0_pay2 x0 x1 x3 x4 x5) (k0_pay3 x6) (k0_pay4 x7) (k0_pay5 x8) (k0_pay6 x9) (k0_pay7 x10) x11 x12 x13 (ix2 p q)
      = val_main_v46 (F := Ideal) A0 A1 A2 A3 A4 A5 A6 A7 A8 A9 A10 A11 A12 (ix2 r q) := by
  have hh : ∀ u : Fin 1024, k0_pay2 x0 x1 x3 x4 x5 (ix2 p u) = val_main_v10 (F := Ideal) A0 A1 A3 A4 (ix2 r u) := fun u =>
    hidden_cell x0 x1 x3 x4 x5 A0 A1 A3 A4 p r u h0 h1 (fun k => h3 k u) (fun k => h4 k u) (h5 u)
  unfold k0_pay1 k0_pay3 k0_pay4 k0_pay5 k0_pay6 k0_pay7
  unfold val_main_v46 val_main_v45 val_main_v44 val_main_v43 val_main_v42 val_main_cst_3 val_main_v41 val_main_v40 val_main_cst_2
    val_main_v39 val_main_v38 val_main_cst_1 val_main_v37 val_main_v36 val_main_v35 val_main_v34 val_main_v33 val_main_v32
    val_main_v31 val_main_v30 val_main_v29 val_main_v27 val_main_v26 val_main_v25 val_main_v24 val_main_v22 val_main_v21
    val_main_v20 val_main_v19 val_main_v18 val_main_v16 val_main_v15 val_main_v14 val_main_v13 val_main_v12
  simp only [shapeCast_self]
  generalize k0_pay2 x0 x1 x3 x4 x5 = hb at hh ⊢
  generalize val_main_v10 (F := Ideal) A0 A1 A3 A4 = H at hh ⊢
  have hs := sigmoid_band _ _ Cert.ReferenceIdeal.Gen.bcast_S_S16384x512 p r q
    (pregate_cell hb H x10 x11 x12 x13 x2 (val_main_v23 (F := Ideal) A9) A10 (val_main_v28 (F := Ideal) A11) A12 A2
      Cert.ReferenceIdeal.dot_S16384x1024_S1024x512_S16384x512_1_0_0_1_n_n rfl
      Cert.ReferenceIdeal.Gen.bcast_S512_S1x512_1 Cert.ReferenceIdeal.Gen.bcast_S1x512_S16384x512_0_1
      Cert.ReferenceIdeal.Gen.bcast_S16384x1_S16384x512_0_1 p r q hh
      (fun k => (h10 k).trans (waT A9 k q).symm) h11 (fun k => (h12 k).trans (wtT A11 k q).symm) h13 h2)
  exact add_band _ _ _ _ p r q
    (mul_band _ _ _ _ p r q
      (tanh_band _ _ p r q (head_cell hb H x6 x7 (val_main_v11 (F := Ideal) A5) A6 _ rfl _ _ p r q hh
        (fun k => (h6 k).trans (w1T A5 k q).symm) h7))
      (sub_band _ _ _ _ p r q (splat_band _ _ p r q) hs))
    (mul_band _ _ _ _ p r q hs
      (tanh_band _ _ p r q (head_cell hb H x8 x9 (val_main_v17 (F := Ideal) A7) A8 _ rfl _ _ p r q hh
        (fun k => (h8 k).trans (w2T A7 k q).symm) h9)))

end Cert.Cell

end
-- ==== Proof.Blocks.lean ====
/-
  What the blocked program's body finds in its staging buffers at grid point `t`, read back to the argument arrays.

  The grid has 32 points; point `t` works on batch rows `512 t … 512 t + 511`. Three operands are cut in bands of 512
  rows: `input`, `hx` and `ts`; entry `(p, k)` of the band at point `t` is entry `(512 t + p, k)` of the array. The
  other eleven operands are whole arrays that the program itself prepared before the launch, each staged whole at
  every point: the backbone's weight cut at input feature 256, each piece transposed (entry `(k, u)` of the first
  piece is `Wb (u, k)`, of the second `Wb (u, 256 + k)`); the four heads' weights transposed (entry `(k, q)` is
  `W (q, k)`); and the five biases as one-row matrices (entry `(0, q)` is `b q`). The change of float format on
  the weights is the identity on the extended reals.
-/
import proofs.«135253_j5669356836202_1_alg».proof.Proof.Gen.KernelIdeal.Value
import Idealize.ShloMosaic.Lib.StableHlo.Run
import Idealize.ShloMosaic.Lib.ValueIdx
import Idealize.ShloMosaic.Lib.Pipeline.Value

noncomputable section

namespace Cert.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The index maps over the 32 grid points -/

/-- The output's block index is the grid point's row band, at most 31, and column block 0. -/
theorem idx14 : ∀ t : Fin cfg0.N, win0_14.index t (0 : Fin 2) ≤ 31 ∧ win0_14.index t (1 : Fin 2) = 0 :=
  (by decide +kernel : ∀ t : Fin grid0.N, _)

/-- The three banded operands move with the output's band. -/
theorem idx_band : ∀ t : Fin cfg0.N,
    win0_0.index t (0 : Fin 2) = win0_14.index t (0 : Fin 2) ∧ win0_0.index t (1 : Fin 2) = 0
    ∧ win0_1.index t (0 : Fin 2) = win0_14.index t (0 : Fin 2) ∧ win0_1.index t (1 : Fin 2) = 0
    ∧ win0_2.index t (0 : Fin 2) = win0_14.index t (0 : Fin 2) ∧ win0_2.index t (1 : Fin 2) = 0 :=
  (by decide +kernel : ∀ t : Fin grid0.N, _)

/-- The eleven whole operands stay at block (0, 0). -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The batch row that band row `p` of grid point `t` is. -/
def row (t : Fin cfg0.N) (p : Fin 512) : Fin 16384 :=
  ⟨win0_14.index t (0 : Fin 2) * 512 + p.val, by have := (idx14 t).1; have := p.isLt; omega⟩

/-! ## The arrays the program prepares before the launch -/

/-- The first piece of the backbone's weight, transposed. -/
theorem V_wbIn (c : Dev nD) (k : Fin 256) (u : Fin 1024) :
    (V m c main_v2 : S256x1024.Idx → Ideal .bf16) (ix2 k u)
      = (m ((c : Thread nD τ).loc main_arg3) : S1024x768.Idx → Ideal .f32) (ix2 u (⟨k.val, by have := k.isLt; omega⟩ : Fin 768)) := by
  unfold V
  after_results
  rw [truncf_apply]
  refine (transpose_apply [1, 0] _ _ (ix2 k u) (ix2 u k) (fun b => by match b with | ⟨0, _⟩ => rfl | ⟨1, _⟩ => rfl)).trans ?_
  exact extractStridedSlice_apply ![0, 0] _ _ (ix2 u k) (ix2 u (⟨k.val, by have := k.isLt; omega⟩ : Fin 768))
    (fun a => by match a with
      | ⟨0, _⟩ => show u.val = 0 + u.val; omega
      | ⟨1, _⟩ => show k.val = 0 + k.val; omega)

/-- The second piece of the backbone's weight, transposed. -/
theorem V_wbHid (c : Dev nD) (k : Fin 512) (u : Fin 1024) :
    (V m c main_v5 : S512x1024.Idx → Ideal .bf16) (ix2 k u)
      = (m ((c : Thread nD τ).loc main_arg3) : S1024x768.Idx → Ideal .f32) (ix2 u (⟨256 + k.val, by have := k.isLt; omega⟩ : Fin 768)) := by
  unfold V
  after_results
  rw [truncf_apply]
  refine (transpose_apply [1, 0] _ _ (ix2 k u) (ix2 u k) (fun b => by match b with | ⟨0, _⟩ => rfl | ⟨1, _⟩ => rfl)).trans ?_
  exact extractStridedSlice_apply ![0, 256] _ _ (ix2 u k) (ix2 u (⟨256 + k.val, by have := k.isLt; omega⟩ : Fin 768))
    (fun a => by match a with
      | ⟨0, _⟩ => show u.val = 0 + u.val; omega
      | ⟨1, _⟩ => show 256 + k.val = 256 + k.val; rfl)

/-- The backbone's bias as one row. -/
theorem V_bb (c : Dev nD) (u : Fin 1024) :
    (V m c main_v14 : S1x1024.Idx → Ideal .f32) (ix2 (0 : Fin 1) u)
      = (m ((c : Thread nD τ).loc main_arg4) : S1024.Idx → Ideal .f32) (ix1 u) := by
  unfold V
  after_results
  show shapeCast S1x1024 (m ((c : Thread nD τ).loc main_arg4)) _ (ix2 (0 : Fin 1) u) = _
  exact shapeCast_apply _ _ (ix2 (0 : Fin 1) u) (ix1 u) (by
    rw [Shape.rowMajor_val_two, Shape.rowMajor_val_one]; show u.val = 0 * 1024 + u.val; omega)

/-- The first head's weight, transposed. -/
theorem V_w1 (c : Dev nD) (k : Fin 1024) (q : Fin 512) :
    (V m c main_v7 : S1024x512.Idx → Ideal .bf16) (ix2 k q)
      = (m ((c : Thread nD τ).loc main_arg5) : S512x1024.Idx → Ideal .f32) (ix2 q k) := by
  unfold V
  after_results
  rw [truncf_apply]
  exact transpose_apply [1, 0] _ _ (ix2 k q) (ix2 q k) (fun b => by match b with | ⟨0, _⟩ => rfl | ⟨1, _⟩ => rfl)

/-- The second head's weight, transposed. -/
theorem V_w2 (c : Dev nD) (k : Fin 1024) (q : Fin 512) :
    (V m c main_v9 : S1024x512.Idx → Ideal .bf16) (ix2 k q)
      = (m ((c : Thread nD τ).loc main_arg7) : S512x1024.Idx → Ideal .f32) (ix2 q k) := by
  unfold V
  after_results
  rw [truncf_apply]
  exact transpose_apply [1, 0] _ _ (ix2 k q) (ix2 q k) (fun b => by match b with | ⟨0, _⟩ => rfl | ⟨1, _⟩ => rfl)

/-- The third head's weight, transposed. -/
theorem V_wa (c : Dev nD) (k : Fin 1024) (q : Fin 512) :
    (V m c main_v11 : S1024x512.Idx → Ideal .bf16) (ix2 k q)
      = (m ((c : Thread nD τ).loc main_arg9) : S512x1024.Idx → Ideal .f32) (ix2 q k) := by
  unfold V
  after_results
  rw [truncf_apply]
  exact transpose_apply [1, 0] _ _ (ix2 k q) (ix2 q k) (fun b => by match b with | ⟨0, _⟩ => rfl | ⟨1, _⟩ => rfl)

/-- The fourth head's weight, transposed. -/
theorem V_wt (c : Dev nD) (k : Fin 1024) (q : Fin 512) :
    (V m c main_v13 : S1024x512.Idx → Ideal .bf16) (ix2 k q)
      = (m ((c : Thread nD τ).loc main_arg11) : S512x1024.Idx → Ideal .f32) (ix2 q k) := by
  unfold V
  after_results
  rw [truncf_apply]
  exact transpose_apply [1, 0] _ _ (ix2 k q) (ix2 q k) (fun b => by match b with | ⟨0, _⟩ => rfl | ⟨1, _⟩ => rfl)

/-- The first head's bias as one row. -/
theorem V_b1 (c : Dev nD) (q : Fin 512) :
    (V m c main_v15 : S1x512.Idx → Ideal .f32) (ix2 (0 : Fin 1) q)
      = (m ((c : Thread nD τ).loc main_arg6) : S512.Idx → Ideal .f32) (ix1 q) := by
  unfold V
  after_results
  show shapeCast S1x512 (m ((c : Thread nD τ).loc main_arg6)) _ (ix2 (0 : Fin 1) q) = _
  exact shapeCast_apply _ _ (ix2 (0 : Fin 1) q) (ix1 q) (by
    rw [Shape.rowMajor_val_two, Shape.rowMajor_val_one]; show q.val = 0 * 512 + q.val; omega)

/-- The second head's bias as one row. -/
theorem V_b2 (c : Dev nD) (q : Fin 512) :
    (V m c main_v16 : S1x512.Idx → Ideal .f32) (ix2 (0 : Fin 1) q)
      = (m ((c : Thread nD τ).loc main_arg8) : S512.Idx → Ideal .f32) (ix1 q) := by
  unfold V
  after_results
  show shapeCast S1x512 (m ((c : Thread nD τ).loc main_arg8)) _ (ix2 (0 : Fin 1) q) = _
  exact shapeCast_apply _ _ (ix2 (0 : Fin 1) q) (ix1 q) (by
    rw [Shape.rowMajor_val_two, Shape.rowMajor_val_one]; show q.val = 0 * 512 + q.val; omega)

/-- The third head's bias as one row. -/
theorem V_ba (c : Dev nD) (q : Fin 512) :
    (V m c main_v17 : S1x512.Idx → Ideal .f32) (ix2 (0 : Fin 1) q)
      = (m ((c : Thread nD τ).loc main_arg10) : S512.Idx → Ideal .f32) (ix1 q) := by
  unfold V
  after_results
  show shapeCast S1x512 (m ((c : Thread nD τ).loc main_arg10)) _ (ix2 (0 : Fin 1) q) = _
  exact shapeCast_apply _ _ (ix2 (0 : Fin 1) q) (ix1 q) (by
    rw [Shape.rowMajor_val_two, Shape.rowMajor_val_one]; show q.val = 0 * 512 + q.val; omega)

/-- The fourth head's bias as one row. -/
theorem V_bt (c : Dev nD) (q : Fin 512) :
    (V m c main_v18 : S1x512.Idx → Ideal .f32) (ix2 (0 : Fin 1) q)
      = (m ((c : Thread nD τ).loc main_arg12) : S512.Idx → Ideal .f32) (ix1 q) := by
  unfold V
  after_results
  show shapeCast S1x512 (m ((c : Thread nD τ).loc main_arg12)) _ (ix2 (0 : Fin 1) q) = _
  exact shapeCast_apply _ _ (ix2 (0 : Fin 1) q) (ix1 q) (by
    rw [Shape.rowMajor_val_two, Shape.rowMajor_val_one]; show q.val = 0 * 512 + q.val; omega)

/-! ## The banded operands' blocks -/

/-- Row `p` of the band of `input` at point `t` is batch row `row t p`. -/
theorem blk_input (c : Dev nD) (t : Fin cfg0.N) (p : Fin 512) (k : Fin 256) :
    iblk m c 0 t (ix2 p k) = (m ((c : Thread nD τ).loc main_arg0) : S16384x256.Idx → Ideal .f32) (ix2 (row t p) k) := by
  obtain ⟨e0, e1, -⟩ := idx_band t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = win0_14.index t (0 : Fin 2) * 512 + p.val; omega
  | ⟨1, _⟩ => show win0_0.index t (1 : Fin 2) * 256 + 1 * k.val = k.val; omega

/-- Row `p` of the band of `hx` at point `t` is batch row `row t p`. -/
theorem blk_hx (c : Dev nD) (t : Fin cfg0.N) (p : Fin 512) (k : Fin 512) :
    iblk m c 1 t (ix2 p k) = (m ((c : Thread nD τ).loc main_arg1) : S16384x512.Idx → Ideal .f32) (ix2 (row t p) k) := by
  obtain ⟨-, -, e0, e1, -⟩ := idx_band t
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = win0_14.index t (0 : Fin 2) * 512 + p.val; omega
  | ⟨1, _⟩ => show win0_1.index t (1 : Fin 2) * 512 + 1 * k.val = k.val; omega

/-- Row `p` of the band of `ts` at point `t` is batch row `row t p`. -/
theorem blk_ts (c : Dev nD) (t : Fin cfg0.N) (p : Fin 512) :
    iblk m c 2 t (ix2 p (0 : Fin 1)) = (m ((c : Thread nD τ).loc main_arg2) : S16384x1.Idx → Ideal .f32) (ix2 (row t p) (0 : Fin 1)) := by
  obtain ⟨-, -, -, -, e0, e1⟩ := idx_band t
  unfold iblk
  rw [View.read_apply]
  show V m c main_arg2 _ = _
  rw [V_main_arg2]
  refine congrArg _ (funext fun a => Fin.ext ?_)
  match a with
  | ⟨0, _⟩ => show win0_2.index t (0 : Fin 2) * 512 + 1 * p.val = win0_14.index t (0 : Fin 2) * 512 + p.val; omega
  | ⟨1, _⟩ => show win0_2.index t (1 : Fin 2) * 1 + 1 * 0 = 0; omega

/-! ## The whole operands' blocks: the array itself, at every point -/

theorem blk_wbIn (c : Dev nD) (t : Fin cfg0.N) (k : Fin 256) (u : Fin 1024) :
    iblk m c 3 t (ix2 k u)
      = (m ((c : Thread nD τ).loc main_arg3) : S1024x768.Idx → Ideal .f32) (ix2 u (⟨k.val, by have := k.isLt; omega⟩ : Fin 768)) := by
  obtain ⟨⟨e0, e1⟩, -⟩ := idx_whole t
  unfold iblk
  rw [View.read_apply]
  refine Eq.trans ?_ (V_wbIn m c k u)
  show V m c main_v2 _ = _
  refine congrArg _ (funext fun a => Fin.ext ?_)
  match a with
  | ⟨0, _⟩ => show win0_3.index t (0 : Fin 2) * 256 + 1 * k.val = k.val; omega
  | ⟨1, _⟩ => show win0_3.index t (1 : Fin 2) * 1024 + 1 * u.val = u.val; omega

theorem blk_wbHid (c : Dev nD) (t : Fin cfg0.N) (k : Fin 512) (u : Fin 1024) :
    iblk m c 4 t (ix2 k u)
      = (m ((c : Thread nD τ).loc main_arg3) : S1024x768.Idx → Ideal .f32) (ix2 u (⟨256 + k.val, by have := k.isLt; omega⟩ : Fin 768)) := by
  obtain ⟨-, ⟨e0, e1⟩, -⟩ := idx_whole t
  unfold iblk
  rw [View.read_apply]
  refine Eq.trans ?_ (V_wbHid m c k u)
  show V m c main_v5 _ = _
  refine congrArg _ (funext fun a => Fin.ext ?_)
  match a with
  | ⟨0, _⟩ => show win0_4.index t (0 : Fin 2) * 512 + 1 * k.val = k.val; omega
  | ⟨1, _⟩ => show win0_4.index t (1 : Fin 2) * 1024 + 1 * u.val = u.val; omega

theorem blk_bb (c : Dev nD) (t : Fin cfg0.N) (u : Fin 1024) :
    iblk m c 5 t (ix2 (0 : Fin 1) u) = (m ((c : Thread nD τ).loc main_arg4) : S1024.Idx → Ideal .f32) (ix1 u) := by
  obtain ⟨-, -, ⟨e0, e1⟩, -⟩ := idx_whole t
  unfold iblk
  rw [View.read_apply]
  refine Eq.trans ?_ (V_bb m c u)
  show V m c main_v14 _ = _
  refine congrArg _ (funext fun a => Fin.ext ?_)
  match a with
  | ⟨0, _⟩ => show win0_5.index t (0 : Fin 2) * 1 + 1 * 0 = 0; omega
  | ⟨1, _⟩ => show win0_5.index t (1 : Fin 2) * 1024 + 1 * u.val = u.val; omega

theorem blk_w1 (c : Dev nD) (t : Fin cfg0.N) (k : Fin 1024) (q : Fin 512) :
    iblk m c 6 t (ix2 k q) = (m ((c : Thread nD τ).loc main_arg5) : S512x1024.Idx → Ideal .f32) (ix2 q k) := by
  obtain ⟨-, -, -, ⟨e0, e1⟩, -⟩ := idx_whole t
  unfold iblk
  rw [View.read_apply]
  refine Eq.trans ?_ (V_w1 m c k q)
  show V m c main_v7 _ = _
  refine congrArg _ (funext fun a => Fin.ext ?_)
  match a with
  | ⟨0, _⟩ => show win0_6.index t (0 : Fin 2) * 1024 + 1 * k.val = k.val; omega
  | ⟨1, _⟩ => show win0_6.index t (1 : Fin 2) * 512 + 1 * q.val = q.val; omega

theorem blk_b1 (c : Dev nD) (t : Fin cfg0.N) (q : Fin 512) :
    iblk m c 7 t (ix2 (0 : Fin 1) q) = (m ((c : Thread nD τ).loc main_arg6) : S512.Idx → Ideal .f32) (ix1 q) := by
  obtain ⟨-, -, -, -, ⟨e0, e1⟩, -⟩ := idx_whole t
  unfold iblk
  rw [View.read_apply]
  refine Eq.trans ?_ (V_b1 m c q)
  show V m c main_v15 _ = _
  refine congrArg _ (funext fun a => Fin.ext ?_)
  match a with
  | ⟨0, _⟩ => show win0_7.index t (0 : Fin 2) * 1 + 1 * 0 = 0; omega
  | ⟨1, _⟩ => show win0_7.index t (1 : Fin 2) * 512 + 1 * q.val = q.val; omega

theorem blk_w2 (c : Dev nD) (t : Fin cfg0.N) (k : Fin 1024) (q : Fin 512) :
    iblk m c 8 t (ix2 k q) = (m ((c : Thread nD τ).loc main_arg7) : S512x1024.Idx → Ideal .f32) (ix2 q k) := by
  obtain ⟨-, -, -, -, -, ⟨e0, e1⟩, -⟩ := idx_whole t
  unfold iblk
  rw [View.read_apply]
  refine Eq.trans ?_ (V_w2 m c k q)
  show V m c main_v9 _ = _
  refine congrArg _ (funext fun a => Fin.ext ?_)
  match a with
  | ⟨0, _⟩ => show win0_8.index t (0 : Fin 2) * 1024 + 1 * k.val = k.val; omega
  | ⟨1, _⟩ => show win0_8.index t (1 : Fin 2) * 512 + 1 * q.val = q.val; omega

theorem blk_b2 (c : Dev nD) (t : Fin cfg0.N) (q : Fin 512) :
    iblk m c 9 t (ix2 (0 : Fin 1) q) = (m ((c : Thread nD τ).loc main_arg8) : S512.Idx → Ideal .f32) (ix1 q) := by
  obtain ⟨-, -, -, -, -, -, ⟨e0, e1⟩, -⟩ := idx_whole t
  unfold iblk
  rw [View.read_apply]
  refine Eq.trans ?_ (V_b2 m c q)
  show V m c main_v16 _ = _
  refine congrArg _ (funext fun a => Fin.ext ?_)
  match a with
  | ⟨0, _⟩ => show win0_9.index t (0 : Fin 2) * 1 + 1 * 0 = 0; omega
  | ⟨1, _⟩ => show win0_9.index t (1 : Fin 2) * 512 + 1 * q.val = q.val; omega

theorem blk_wa (c : Dev nD) (t : Fin cfg0.N) (k : Fin 1024) (q : Fin 512) :
    iblk m c 10 t (ix2 k q) = (m ((c : Thread nD τ).loc main_arg9) : S512x1024.Idx → Ideal .f32) (ix2 q k) := by
  obtain ⟨-, -, -, -, -, -, -, ⟨e0, e1⟩, -⟩ := idx_whole t
  unfold iblk
  rw [View.read_apply]
  refine Eq.trans ?_ (V_wa m c k q)
  show V m c main_v11 _ = _
  refine congrArg _ (funext fun a => Fin.ext ?_)
  match a with
  | ⟨0, _⟩ => show win0_10.index t (0 : Fin 2) * 1024 + 1 * k.val = k.val; omega
  | ⟨1, _⟩ => show win0_10.index t (1 : Fin 2) * 512 + 1 * q.val = q.val; omega

theorem blk_ba (c : Dev nD) (t : Fin cfg0.N) (q : Fin 512) :
    iblk m c 11 t (ix2 (0 : Fin 1) q) = (m ((c : Thread nD τ).loc main_arg10) : S512.Idx → Ideal .f32) (ix1 q) := by
  obtain ⟨-, -, -, -, -, -, -, -, ⟨e0, e1⟩, -⟩ := idx_whole t
  unfold iblk
  rw [View.read_apply]
  refine Eq.trans ?_ (V_ba m c q)
  show V m c main_v17 _ = _
  refine congrArg _ (funext fun a => Fin.ext ?_)
  match a with
  | ⟨0, _⟩ => show win0_11.index t (0 : Fin 2) * 1 + 1 * 0 = 0; omega
  | ⟨1, _⟩ => show win0_11.index t (1 : Fin 2) * 512 + 1 * q.val = q.val; omega

theorem blk_wt (c : Dev nD) (t : Fin cfg0.N) (k : Fin 1024) (q : Fin 512) :
    iblk m c 12 t (ix2 k q) = (m ((c : Thread nD τ).loc main_arg11) : S512x1024.Idx → Ideal .f32) (ix2 q k) := by
  obtain ⟨-, -, -, -, -, -, -, -, -, ⟨e0, e1⟩, -⟩ := idx_whole t
  unfold iblk
  rw [View.read_apply]
  refine Eq.trans ?_ (V_wt m c k q)
  show V m c main_v13 _ = _
  refine congrArg _ (funext fun a => Fin.ext ?_)
  match a with
  | ⟨0, _⟩ => show win0_12.index t (0 : Fin 2) * 1024 + 1 * k.val = k.val; omega
  | ⟨1, _⟩ => show win0_12.index t (1 : Fin 2) * 512 + 1 * q.val = q.val; omega

theorem blk_bt (c : Dev nD) (t : Fin cfg0.N) (q : Fin 512) :
    iblk m c 13 t (ix2 (0 : Fin 1) q) = (m ((c : Thread nD τ).loc main_arg12) : S512.Idx → Ideal .f32) (ix1 q) := by
  obtain ⟨-, -, -, -, -, -, -, -, -, -, e0, e1⟩ := idx_whole t
  unfold iblk
  rw [View.read_apply]
  refine Eq.trans ?_ (V_bt m c q)
  show V m c main_v18 _ = _
  refine congrArg _ (funext fun a => Fin.ext ?_)
  match a with
  | ⟨0, _⟩ => show win0_13.index t (0 : Fin 2) * 1 + 1 * 0 = 0; omega
  | ⟨1, _⟩ => show win0_13.index t (1 : Fin 2) * 512 + 1 * q.val = q.val; omega

end Cert.Blocks

end
-- ==== Proof.Final.lean ====
/-
  The blocked program's result array, whole.

  Grid point `t` writes back rows `512 t … 512 t + 511` of the result, all 512 columns. What it writes at band entry
  `(p, q)` is the network's output for batch row `512 t + p`, output `q`: the body's arithmetic on the blocks it finds
  is, entry by entry, the whole-array program's arithmetic on the arrays. The 32 bands cover the
  16384 rows, so after the run the result array is the network's output on every row.
-/
import proofs.«135253_j5669356836202_1_alg».proof.Proof.Gen.KernelIdeal.Value
import proofs.«135253_j5669356836202_1_alg».proof.Proof.Gen.ReferenceIdeal.Read
import proofs.«135253_j5669356836202_1_alg».proof.Proof.Cell
import proofs.«135253_j5669356836202_1_alg».proof.Proof.Blocks

noncomputable section

namespace Cert.Final

open Cert.KernelIdeal Cert.KernelIdeal.Gen Idealize.ShloMosaic Idealize.ShloMosaic.TcCoe Idealize.SL.Sem
open Idealize.ShloMosaic.ValueIdx Cert.Blocks
open Idealize.ShloMosaic.Pipeline (Dat)

variable (m : (ℓ : Loc nD τ sig) → Buf (Elt Ideal) ℓ) (ρ : Dev nD → PrngReg)

/-- The network's output on the whole batch as one function of the thirteen argument arrays, spelt the way the
    whole-array program computes it. -/
def net (c : Dev nD) : Buf (Elt Ideal) ((c : Thread nD τ).loc main_v19) :=
  Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

theorem hz : (![0, 0] : Fin 2 → Nat) = fun _ => 0 := funext fun a => by fin_cases a <;> rfl

/-- What grid point `t` writes back is the band of `net` it covers. -/
theorem flushed_eq (c : Dev nD) (t : Fin cfg0.N) :
    (dats m 0 c).flushed 14 t = ((cfg0.win 14).blk t).view.read (Elt Ideal) (net m c) := by
  rw [Cert.KernelIdeal.Value.flushed14]
  unfold out0_14
  rw [View.canon_unit_zero hz]
  simp only [View.ld_unit_zero (S := S512x256) hz, View.ld_unit_zero (S := S512x512) hz, View.ld_unit_zero (S := S512x1) hz,
    View.ld_unit_zero (S := S256x1024) hz, View.ld_unit_zero (S := S512x1024) hz, View.ld_unit_zero (S := S1x1024) hz,
    View.ld_unit_zero (S := S1024x512) hz, View.ld_unit_zero (S := S1x512) hz]
  funext j
  obtain ⟨p, q, rfl⟩ : ∃ (p : Fin 512) (q : Fin 512), j = ix2 p q := ⟨j 0, j 1, eq_ix2 j⟩
  have e : ((cfg0.win 14).blk t).view.emb (ix2 p q) = ix2 (row t p) q := by
    obtain ⟨-, e1⟩ := idx14 t
    funext a; apply Fin.ext
    match a with
    | ⟨0, _⟩ => show win0_14.index t (0 : Fin 2) * 512 + 1 * p.val = win0_14.index t (0 : Fin 2) * 512 + p.val; omega
    | ⟨1, _⟩ => show win0_14.index t (1 : Fin 2) * 512 + 1 * q.val = q.val; omega
  show k0_pay1 (iblk m c 2 t) (k0_pay2 (iblk m c 0 t) (iblk m c 1 t) (iblk m c 3 t) (iblk m c 4 t) (iblk m c 5 t))
      (k0_pay3 (iblk m c 6 t)) (k0_pay4 (iblk m c 7 t)) (k0_pay5 (iblk m c 8 t)) (k0_pay6 (iblk m c 9 t))
      (k0_pay7 (iblk m c 10 t)) (iblk m c 11 t) (iblk m c 12 t) (iblk m c 13 t) (ix2 p q)
    = net m c (((cfg0.win 14).blk t).view.emb (ix2 p q))
  rw [e]
  unfold net
  exact Cert.Cell.out_cell (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    p (row t p) q
    (fun k => blk_input m c t p k) (fun k => blk_hx m c t p k) (blk_ts m c t p)
    (fun k u => blk_wbIn m c t k u) (fun k u => blk_wbHid m c t k u) (fun u => blk_bb m c t u)
    (fun k => blk_w1 m c t k q) (blk_b1 m c t q) (fun k => blk_w2 m c t k q) (blk_b2 m c t q)
    (fun k => blk_wa m c t k q) (blk_ba m c t q) (fun k => blk_wt m c t k q) (blk_bt m c t q)

/-- An index of the result array is in point `t`'s block iff each coordinate is in the block's range on its axis. -/
theorem mem_blk (t : Fin cfg0.N) (i : S16384x512.Idx) :
    i ∈ ((cfg0.win 14).blk t).view.set ↔ ∀ a : Fin 2, win0_14.index t a * S512x512.size a ≤ (i a).val
      ∧ (i a).val < win0_14.index t a * S512x512.size a + S512x512.size a := by
  show i ∈ ((View.whole main_v19).slice (win0_14.rect t)).set ↔ _
  rw [View.set_slice_whole, Rect.mem_set_unit]
  exact Iff.rfl

/-- Every one of the 32 row bands is some grid point's. -/
theorem band_onto : ∀ b : Fin 32, ∃ t : Fin cfg0.N, win0_14.index t = ![b.val, 0] :=
  (by decide +kernel : ∀ b : Fin 32, ∃ t : Fin grid0.N, win0_14.index t = ![b.val, 0])

/-- The bands cover the result array: row `i` lies in band `i / 512`. -/
theorem cover (i : S16384x512.Idx) :
    ∃ t : Fin cfg0.N, (cfg0.win 14).flush t = true ∧ i ∈ ((cfg0.win 14).blk t).view.set := by
  have hi0 : (i 0).val < 16384 := (i 0).isLt
  have hi1 : (i 1).val < 512 := (i 1).isLt
  obtain ⟨t, ht⟩ := band_onto ⟨(i 0).val / 512, by omega⟩
  have q0 : win0_14.index t (0 : Fin 2) = (i 0).val / 512 := congrFun ht 0
  have q1 : win0_14.index t (1 : Fin 2) = 0 := congrFun ht 1
  refine ⟨t, flush0_14 t, ?_⟩
  rw [mem_blk]
  intro a
  match a with
  | ⟨0, _⟩ =>
    show win0_14.index t (0 : Fin 2) * 512 ≤ (i 0).val ∧ (i 0).val < win0_14.index t (0 : Fin 2) * 512 + 512
    omega
  | ⟨1, _⟩ =>
    show win0_14.index t (1 : Fin 2) * 512 ≤ (i 1).val ∧ (i 1).val < win0_14.index t (1 : Fin 2) * 512 + 512
    omega

/-- After the run the result array holds the network's output on the whole batch. -/
theorem final (c : Dev nD) : (dats m 0 c).arrAt 14 cfg0.N = net m c :=
  (dats m 0 c).arrAt_eq_of_cover 14 (net m c) (fun t _ => flushed_eq m c t) cover

/-- The blocked program's run: it terminates, the result array at `net`, the arguments unchanged. -/
theorem run : θ_run defs (onTc (τ := τ) (main (F := Ideal))) ⟨m, fun _ => 0, ρ⟩ fun r => ∀ c : Dev nD,
      r.2.mem ((c : Thread nD τ).loc main_v19) = net m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Cert.KernelIdeal.Value.run_blocks m ρ)

end Cert.Final

end
-- ==== Proof.lean ====
/-
  A network of one hidden layer and four gated heads, treating every batch row alone, computed two ways.

  For a batch row `x = [input | hx]` (256 + 512 features) with time step `ts`:
  `h = c₂ · tanh (c₁ · (x · Wbᵀ + bb))` (1024 units; `c₁`, `c₂` two fixed float constants, the same words in both
  programs), `f₁ = tanh (h · W1ᵀ + b1)`, `f₂ = tanh (h · W2ᵀ + b2)`, `tₐ = h · Waᵀ + ba`, `t_b = h · Wtᵀ + bt`,
  `s = 1 / (1 + e^(-(tₐ · ts + t_b)))`, and the result `f₁ · (1 - s) + s · f₂` (512 outputs).

  The blocked program runs over 32 bands of 512 batch rows. It never joins `input` and `hx`: it multiplies each by
  its own piece of `Wbᵀ` and adds the two products. The whole-array program joins them and multiplies once. Over the
  extended reals the two agree because a sum over 768 features is the sum over the first 256 plus the sum over the last
  512; this needs no finiteness, so the precondition is never opened. The gate is one operation in the blocked program
  and its four-operation expansion in the other, the same function. Changes of float format are the identity.

  `Proof/LibRows.lean`, `Proof/LibCells.lean`: one operation at a time, an entry of a band against the entry of the whole.
  `Proof/Cell.lean`: one entry of the network's output on a band against the whole. `Proof/Blocks.lean`: what the
  body's blocks hold, read back to the arguments. `Proof/Final.lean`: the result array after the run. Here: the claims.
-/
import proofs.«135253_j5669356836202_1_alg».proof.Defs
import proofs.«135253_j5669356836202_1_alg».proof.Proof.Gen.Kernel
import proofs.«135253_j5669356836202_1_alg».proof.Proof.Gen.Kernel.Skeleton
import proofs.«135253_j5669356836202_1_alg».proof.Proof.Gen.Kernel.Launch
import proofs.«135253_j5669356836202_1_alg».proof.Proof.Gen.Kernel.Points
import proofs.«135253_j5669356836202_1_alg».proof.Proof.Gen.Kernel.Frame
import proofs.«135253_j5669356836202_1_alg».proof.Proof.Gen.KernelIdeal
import proofs.«135253_j5669356836202_1_alg».proof.Proof.Gen.KernelIdeal.Skeleton
import proofs.«135253_j5669356836202_1_alg».proof.Proof.Gen.KernelIdeal.Launch
import proofs.«135253_j5669356836202_1_alg».proof.Proof.Gen.KernelIdeal.Points
import proofs.«135253_j5669356836202_1_alg».proof.Proof.Gen.KernelIdeal.Frame
import proofs.«135253_j5669356836202_1_alg».proof.Proof.Gen.ReferenceIdeal
import proofs.«135253_j5669356836202_1_alg».proof.Proof.Gen.Pre_finite_inputs
import proofs.«135253_j5669356836202_1_alg».proof.Proof.Gen.KernelIdeal.Value
import proofs.«135253_j5669356836202_1_alg».proof.Proof.Gen.ReferenceIdeal.Run
import proofs.«135253_j5669356836202_1_alg».proof.Proof.Gen.ReferenceIdeal.Read
import proofs.«135253_j5669356836202_1_alg».proof.Proof.Final
import Idealize.ShloMosaic.Adequacy
import Idealize.ShloMosaic.Init

noncomputable section

namespace Cert.Proof

open Idealize.ShloMosaic Idealize.ShloMosaic.TcCoe Idealize.SL.Sem

/-- The blocked program at the word level terminates without fault and leaves its arguments unchanged. -/
theorem frame_k : Cert.frame_Kernel := fun m ρ _ => Cert.Kernel.Gen.frame m ρ

/-- So does the blocked program read over the extended reals. -/
theorem frame_ki : Cert.frame_KernelIdeal := fun m ρ _ => Cert.KernelIdeal.Gen.frame m ρ

/-- So does the whole-array program: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the thirteen arguments both programs end with the same result array: the network's
    output on the whole batch, which the blocked program assembles band by band and the whole-array program computes
    at once. -/
theorem algebraic : Cert.algebraic_KernelIdeal_ReferenceIdeal := by
  intro m ρ m' ρ' _ hagree
  refine ⟨fun c => Cert.Final.net m c, Cert.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v46_eq, a0, a1, a2, a3, a4, a5, a6, a7, a8, a9, a10, a11, a12]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
